-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S320000 : Shape := ⟨1, ![320000]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : IVec S320000 32) (main_arg3 : IVec S320000 32) (main_arg4 : FVec F S256x1 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x1 .f32 := Host.absf main_arg4
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S50000x128 : Shape := ⟨2, ![50000, 128]⟩
abbrev S320000 : Shape := ⟨1, ![320000]⟩
abbrev S256x1 : Shape := ⟨2, ![256, 1]⟩
abbrev S1 : Shape := ⟨1, ![1]⟩
abbrev S1x256 : Shape := ⟨2, ![1, 256]⟩
abbrev S_ : Shape := ⟨0, ![]⟩
abbrev S53248x128 : Shape := ⟨2, ![53248, 128]⟩
abbrev S53248x1 : Shape := ⟨2, ![53248, 1]⟩
abbrev S4096x128 : Shape := ⟨2, ![4096, 128]⟩
abbrev S4096x1 : Shape := ⟨2, ![4096, 1]⟩
abbrev S1x128 : Shape := ⟨2, ![1, 128]⟩
abbrev S4096 : Shape := ⟨1, ![4096]⟩
abbrev S50000x1 : Shape := ⟨2, ![50000, 1]⟩
abbrev S50000 : Shape := ⟨1, ![50000]⟩
abbrev S320000x1 : Shape := ⟨2, ![320000, 1]⟩

abbrev nBuf : Space → Nat
  | .hbm => 42
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S320000, .i32⟩
  | .hbm, ⟨3, _⟩ => ⟨S320000, .i32⟩
  | .hbm, ⟨4, _⟩ => ⟨S256x1, .f32⟩
  | .hbm, ⟨5, _⟩ => ⟨S1, .f32⟩
  | .hbm, ⟨6, _⟩ => ⟨S1x256, .f32⟩
  | .hbm, ⟨7, _⟩ => ⟨S_, .i32⟩
  | .hbm, ⟨8, _⟩ => ⟨S_, .f32⟩
  | .hbm, ⟨9, _⟩ => ⟨S53248x128, .f32⟩
  | .hbm, ⟨10, _⟩ => ⟨S_, .i32⟩
  | .hbm, ⟨11, _⟩ => ⟨S_, .f32⟩
  | .hbm, ⟨12, _⟩ => ⟨S53248x128, .f32⟩
  | .hbm, ⟨13, _⟩ => ⟨S53248x1, .f32⟩
  | .hbm, ⟨14, _⟩ => ⟨S53248x1, .f32⟩
  | .hbm, ⟨15, _⟩ => ⟨S50000x1, .f32⟩
  | .hbm, ⟨16, _⟩ => ⟨S50000, .f32⟩
  | .hbm, ⟨17, _⟩ => ⟨S50000x1, .f32⟩
  | .hbm, ⟨18, _⟩ => ⟨S50000, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000, .f32⟩
  | .hbm, ⟨37, _⟩ => ⟨S320000, .f32⟩
  | .hbm, ⟨38, _⟩ => ⟨S_, .f32⟩
  | .hbm, ⟨39, _⟩ => ⟨S320000, .f32⟩
  | .hbm, ⟨40, _⟩ => ⟨S320000, .f32⟩
  | .hbm, ⟨41, _⟩ => ⟨S320000x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x256, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x1_S1x256 : S256x1.ShapeCasts S1x256
  pads_S50000x128_S53248x128_032480_000 : S50000x128.Pads (![0, 0] : Fin 2 → Nat) ![3248, 0] ![0, 0] S53248x128
  h_S_ : 0 < S_.numel
  inb_S1x256_S1x128_0_0 : ∀ a, (![0, 0] : Fin 2 → Nat) a + S1x128.size a ≤ S1x256.size a
  h_S1x128 : 0 < S1x128.numel
  shapeCasts_S1x128_S1x128 : S1x128.ShapeCasts S1x128
  inb_S1x256_S1x128_0_128 : ∀ a, (![0, 128] : Fin 2 → Nat) a + S1x128.size a ≤ S1x256.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  slices_S53248x1_S50000x1_0_0 : S53248x1.Slices ![0, 0] S50000x1
  shapeCasts_S50000x1_S50000 : S50000x1.ShapeCasts S50000
  bcast_S_S320000 : S_.BroadcastsInDim S320000 (![] : Fin 0 → Fin S320000.rank)
  bcast_S320000_S320000x1_0 : S320000.BroadcastsInDim S320000x1 (![0] : Fin 1 → Fin S320000x1.rank)
  shapeCasts_S1_S_ : S1.ShapeCasts S_
  shapeCasts_S320000_S320000x1 : S320000.ShapeCasts S320000x1
  gather_S50000_S320000x1_S320000_n_0_n_n_0_1_1_wf : GatherDims.WF S50000 S320000x1 S320000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S53248x128.size a
  hwx0_0 : ∀ i : grid0.Coords, EltTy.bits .f32 = 32 ∨ (Rect.block (s := S53248x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S53248x128.size a
  hwx0_1 : ∀ i : grid0.Coords, EltTy.bits .f32 = 32 ∨ (Rect.block (s := S53248x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S53248x1.size a
  hwx0_3 : ∀ i : grid0.Coords, EltTy.bits .f32 = 32 ∨ (Rect.block (s := S53248x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S53248x1.size a
  hwx0_4 : ∀ i : grid0.Coords, EltTy.bits .f32 = 32 ∨ (Rect.block (s := S53248x1) S4096x1.size (cc0_transform_4 i) (hinb0_4 i)).WholeWords (EltTy.packing .f32)

variable [Facts₀]

def gather_S50000_S320000x1_S320000_n_0_n_n_0_1_1 : GatherDims S50000 S320000x1 S320000 where
  offsetDims := []
  collapsedSliceDims := [0]
  operandBatchingDims := []
  startIndicesBatchingDims := []
  startIndexMap := [0]
  indexVectorDim := 1
  sliceSizes := ![1]
  wf := gather_S50000_S320000x1_S320000_n_0_n_n_0_1_1_wf

abbrev win0_0 : Pipeline.Window sig grid0 :=
  Pipeline.Window.ofSpec (Memref.whole main_v1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4096x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S320000 : Shape := ⟨1, ![320000]⟩
abbrev S256x1 : Shape := ⟨2, ![256, 1]⟩
abbrev S1 : Shape := ⟨1, ![1]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S320000, .i32⟩
  | .hbm, ⟨3, _⟩ => ⟨S320000, .i32⟩
  | .hbm, ⟨4, _⟩ => ⟨S256x1, .f32⟩
  | .hbm, ⟨5, _⟩ => ⟨S1, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x128, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x128, .f32⟩
  | .hbm, ⟨24, _⟩ => ⟨S320000x256, .f32⟩
  | .hbm, ⟨25, _⟩ => ⟨S320000x1, .f32⟩
  | .hbm, ⟨26, _⟩ => ⟨S1x1, .f32⟩
  | .hbm, ⟨27, _⟩ => ⟨S320000x1, .f32⟩
  | .hbm, ⟨28, _⟩ => ⟨S320000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  gather_S50000x128_S320000x1_S320000x128_1_0_n_n_0_1_1128_wf : GatherDims.WF S50000x128 S320000x1 S320000x128 [1] [0] [] [0] [] 1 ![1, 128]
  dot_S320000x256_S256x1_S320000x1_1_0_0_1_n_n_wf : DotDims.WF S320000x256 S256x1 S320000x1 [1] [0] [0] [1] [] []

variable [Facts₀]

def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf

class Facts : Prop extends Facts₀ where

variable [Facts]
-- ==== Proof.RowDot.lean ====
/-
  The kernel body's arithmetic at an index.

  Each of the body's two stores holds, at row `r` of the block, the lane sum over the 128 columns of a block row times a
  128-wide weight row broadcast down the rows: `Σ_{k<128} blk[r,k] · wrow[0,k]`. The shape casts around it only rename
  indices (a cast to the same shape; a column `[4096] → [4096,1]`), the broadcast reads the weight row at column `k`
  whatever the row, and at the ideal values the lane reduction is the plain sum over the reduced axis.
-/
import proofs.«417019_j61495341744586_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.NodeSums

open Cert.KernelIdeal Cert.KernelIdeal.Gen
open Idealize.ShloMosaic Idealize.ShloMosaic.ValueIdx

/-- The source index of the lane reduction over result row `r` at column `k` is `(r, k)`: the reduced axis is the
    second, so the row coordinate is kept and the column inserted. -/
theorem lift_row (r : Fin 4096) (k : Fin (S4096x128.size 1)) :
    reduces_S4096x128_S4096.lift (ix1 r) k = ix2 r ⟨k.val, k.isLt⟩ :=
  funext fun a => Fin.ext (by
    rw [Shape.Reduces.lift_val]
    unfold Shape.Reduces.liftVal
    match a with
    | ⟨0, _⟩ => simp
    | ⟨1, _⟩ => simp)

/-- A block row's product with the weight row, as the body computes it, read at `(r, ·)`. -/
theorem rowdot_apply (wrow : Vec Ideal S1x128 .f32) (blk : Vec Ideal S4096x128 .f32) (r : Fin 4096) (z : Fin 1) :
    shapeCast S4096x1 (multiReduction (F := Ideal) .add [1] S4096
        (mulf (F := Ideal) (shapeCast S4096x128 blk shapeCasts_S4096x128_S4096x128)
          (broadcastTo S4096x128 (shapeCast S1x128 wrow shapeCasts_S1x128_S1x128) broadcasts_S1x128_S4096x128))
        0x00000000#32 reduces_S4096x128_S4096 (.inl rfl) rfl) shapeCasts_S4096_S4096x1 (ix2 r z)
      = ∑ k : Fin 128, blk (ix2 r k) * wrow (ix2 0 k) := by
  refine (shapeCast_apply _ shapeCasts_S4096_S4096x1 (ix2 r z) (ix1 r) ?_).trans ?_
  · rw [Shape.rowMajor_val_one, Shape.rowMajor_val_two]
    show r.val = r.val * 1 + z.val
    have := z.isLt
    omega
  refine (Ideal.multiReduction_add_single _ _ reduces_S4096x128_S4096 _ _ (ix1 r)).trans ?_
  refine Finset.sum_congr rfl fun k _ => ?_
  rw [lift_row]
  show shapeCast S4096x128 blk shapeCasts_S4096x128_S4096x128 (ix2 r k)
      * broadcastTo S4096x128 (shapeCast S1x128 wrow shapeCasts_S1x128_S1x128) broadcasts_S1x128_S4096x128 (ix2 r k) = _
  rw [shapeCast_self, shapeCast_self]
  refine congrArg (blk (ix2 r k) * ·) ?_
  exact broadcastTo_apply wrow broadcasts_S1x128_S4096x128 (ix2 r k) (ix2 0 k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

/-- The first store's value at `(r, ·)`: the user block's row `r` times the loaded weight row. -/
theorem pay1_apply (wrow : Vec Ideal S1x128 .f32) (blk : Vec Ideal S4096x128 .f32) (r : Fin 4096) (z : Fin 1) :
    k0_pay1 (F := Ideal) wrow blk (ix2 r z) = ∑ k : Fin 128, blk (ix2 r k) * wrow (ix2 0 k) :=
  rowdot_apply wrow blk r z

/-- The second store's value at `(r, ·)`: the item block's row `r` times the loaded weight row. -/
theorem pay2_apply (wrow : Vec Ideal S1x128 .f32) (blk : Vec Ideal S4096x128 .f32) (r : Fin 4096) (z : Fin 1) :
    k0_pay2 (F := Ideal) wrow blk (ix2 r z) = ∑ k : Fin 128, blk (ix2 r k) * wrow (ix2 0 k) :=
  rowdot_apply wrow blk r z

end Cert.KernelIdeal.NodeSums

end
-- ==== Proof.ScoreSpec.lean ====
/-
  The edge score as ONE function of the argument arrays, and the law that joins the two programs.

  For edge `e` let `i` be the user row and `j` the item row its two start indices name (each read signed and
  clamped into the 50000-row table). The score is

      (Σ_{k<128} user[i,k] · W[k,0]  +  Σ_{k<128} item[j,k] · W[128+k,0])  +  b[0]

  on the extended reals. One program forms the two half sums per NODE and gathers scalars; the other gathers the two
  128-wide rows per EDGE, joins them into one 256-wide row and contracts it with all of `W`. The two agree because a
  sum over 256 positions is the sum over its first 128 plus the sum over its last 128 (`sum_halves`): the extended
  reals are a commutative additive monoid, so no finiteness is needed.
-/
import Mathlib.Algebra.BigOperators.Fin
import Idealize.ShloMosaic.PureOps.Ideal
import Idealize.ShloMosaic.Lib.ValueIdx

noncomputable section

namespace Cert.Score

open Idealize.ShloMosaic Idealize.ShloMosaic.ValueIdx

/-- The table row a start index names: entry `(e, 0)` of the start-index column read as a signed integer and clamped
    into `[0, N - 1]`. -/
def row {E : Nat} (N : Nat) (hN : 0 < N) (idx : IVec ⟨2, ![E, 1]⟩ 32) (e : Fin E) : Fin N :=
  ⟨min (idx (ix2 e 0)).toInt.toNat (N - 1), by omega⟩

/-- An index vector as the start-index column a table lookup takes: an entry below zero has the table length 50000
    added once (an index counted from the end), every entry is then placed at `(e, 0)`. -/
def startCol (x : IVec ⟨1, ![320000]⟩ 32) : IVec ⟨2, ![320000, 1]⟩ 32 :=
  broadcastInDim ⟨2, ![320000, 1]⟩ (![0] : Fin 1 → Fin 2) (by decide)
    (select (cmpi .slt x (broadcastInDim ⟨1, ![320000]⟩ (![] : Fin 0 → Fin 1) (by decide) (constantI ⟨0, ![]⟩ 32 0#32)))
      (addi x (broadcastInDim ⟨1, ![320000]⟩ (![] : Fin 0 → Fin 1) (by decide) (constantI ⟨0, ![]⟩ 32 50000#32))) x)

/-- Position `k` of the first half of the 256 weights. -/
abbrev lo (k : Fin 128) : Fin 256 := ⟨k.val, by omega⟩
/-- Position `k` of the second half of the 256 weights. -/
abbrev hi (k : Fin 128) : Fin 256 := ⟨128 + k.val, by omega⟩

/-- The score array: at `(e, ·)` the user row's product with the first 128 weights, plus the item row's product with
    the last 128, plus the bias. `s` and `d` are the two start-index columns. -/
def score (U I : (⟨2, ![50000, 128]⟩ : Shape).Idx → EReal) (s d : IVec ⟨2, ![320000, 1]⟩ 32)
    (W : (⟨2, ![256, 1]⟩ : Shape).Idx → EReal) (b : (⟨1, ![1]⟩ : Shape).Idx → EReal) :
    (⟨2, ![320000, 1]⟩ : Shape).Idx → EReal := fun i =>
  (∑ k : Fin 128, U (ix2 (row 50000 (by decide) s (i 0)) k) * W (ix2 (lo k) 0)
    + ∑ k : Fin 128, I (ix2 (row 50000 (by decide) d (i 0)) k) * W (ix2 (hi k) 0))
  + b (ix1 0)

/-- A sum over 256 positions is the sum over the first 128 plus the sum over the last 128. -/
theorem sum_halves (f : Fin 256 → EReal) :
    ∑ k : Fin 256, f k = ∑ k : Fin 128, f (lo k) + ∑ k : Fin 128, f (hi k) := by
  have h := Fin.sum_univ_add (M := EReal) (a := 128) (b := 128) f
  -- the two embeddings of `Fin 128` into `Fin (128 + 128)` are `lo` and `hi`
  exact h.trans rfl

end Cert.Score

end
-- ==== Proof.NodeSums.lean ====
/-
  The two arrays the region leaves: per-node half sums over the padded tables.

  Grid point `t` of 13 stages rows `4096·t … 4096·t + 4095` of the padded user table, the same rows of the padded item
  table and the whole weight row, and writes back rows `4096·t …` of two one-column arrays. Row `r` of the first is the
  padded user table's row `r` times the weight row's first 128 entries, row `r` of the second the padded item table's
  row `r` times the last 128: each written block is the restriction of ONE function of the arrays as the region finds
  them, and the thirteen blocks cover all 53248 rows, so each array ends as that function.
-/
import proofs.«417019_j61495341744586_3_alg».proof.Proof.Gen.KernelIdeal.Frame
import proofs.«417019_j61495341744586_3_alg».proof.Proof.RowDot
import proofs.«417019_j61495341744586_3_alg».proof.Proof.ScoreSpec

set_option maxRecDepth 16384

noncomputable section

namespace Cert.KernelIdeal.NodeSums

open Cert.KernelIdeal Cert.KernelIdeal.Gen
open Idealize.ShloMosaic Idealize.ShloMosaic.TcCoe Idealize.ShloMosaic.ValueIdx Idealize.SL.Sem Cert.Score

variable (m : (ℓ : Loc nD τ sig) → Buf (Elt Ideal) ℓ)

/-- Row `i` of a padded table times the first 128 weights, as a one-column array. -/
def nodeLo (A : Vec Ideal S53248x128 .f32) (w : Vec Ideal S1x256 .f32) : Vec Ideal S53248x1 .f32 :=
  fun i => ∑ k : Fin 128, A (ix2 (i 0) k) * w (ix2 0 (lo k))
/-- Row `i` of a padded table times the last 128 weights, as a one-column array. -/
def nodeHi (A : Vec Ideal S53248x128 .f32) (w : Vec Ideal S1x256 .f32) : Vec Ideal S53248x1 .f32 :=
  fun i => ∑ k : Fin 128, A (ix2 (i 0) k) * w (ix2 0 (hi k))

theorem zero_off : (![0, 0] : Fin 2 → Nat) = fun _ => 0 := funext fun a => by fin_cases a <;> rfl

/-- The weight row's first load reads its entries `0 … 127`. -/
theorem ld_lo (w : Vec Ideal S1x256 .f32) (k : Fin 128) : View.ld w r0_0 (ix2 0 k) = w (ix2 0 (lo k)) := by
  show w (r0_0.emb (ix2 0 k)) = w (ix2 0 (lo k))
  refine congrArg w (funext fun a => Fin.ext ?_)
  match a with
  | ⟨0, _⟩ => rfl
  | ⟨1, _⟩ => show 0 + 1 * k.val = k.val; omega
/-- The weight row's second load reads its entries `128 … 255`. -/
theorem ld_hi (w : Vec Ideal S1x256 .f32) (k : Fin 128) : View.ld w r0_1 (ix2 0 k) = w (ix2 0 (hi k)) := by
  show w (r0_1.emb (ix2 0 k)) = w (ix2 0 (hi k))
  refine congrArg w (funext fun a => Fin.ext ?_)
  match a with
  | ⟨0, _⟩ => rfl
  | ⟨1, _⟩ => show 128 + 1 * k.val = 128 + k.val; omega

/-- One written entry of the first output, over any staged blocks: if row `j` of the staged table block is row `i` of
    the table and the staged weight row is the weight row, the entry is the table's row `i` times the first 128 weights. -/
theorem entry_lo (A : Vec Ideal S53248x128 .f32) (w wb : Vec Ideal S1x256 .f32) (xb : Vec Ideal S4096x128 .f32)
    (j : S4096x1.Idx) (i : S53248x1.Idx) (hx : ∀ k : Fin 128, xb (ix2 (j 0) k) = A (ix2 (i 0) k)) (hw : wb = w) :
    k0_pay1 (F := Ideal) (View.ld wb r0_0) xb j = nodeLo A w i := by
  subst hw
  obtain ⟨r, z, rfl⟩ : ∃ (r : Fin 4096) (z : Fin 1), j = ix2 r z := ⟨j 0, j 1, eq_ix2 j⟩
  refine (pay1_apply _ _ r z).trans ?_
  unfold nodeLo
  exact Finset.sum_congr rfl fun k _ => by rw [hx k, ld_lo]
/-- One written entry of the second output, likewise with the last 128 weights. -/
theorem entry_hi (A : Vec Ideal S53248x128 .f32) (w wb : Vec Ideal S1x256 .f32) (xb : Vec Ideal S4096x128 .f32)
    (j : S4096x1.Idx) (i : S53248x1.Idx) (hx : ∀ k : Fin 128, xb (ix2 (j 0) k) = A (ix2 (i 0) k)) (hw : wb = w) :
    k0_pay2 (F := Ideal) (View.ld wb r0_1) xb j = nodeHi A w i := by
  subst hw
  obtain ⟨r, z, rfl⟩ : ∃ (r : Fin 4096) (z : Fin 1), j = ix2 r z := ⟨j 0, j 1, eq_ix2 j⟩
  refine (pay2_apply _ _ r z).trans ?_
  unfold nodeHi
  exact Finset.sum_congr rfl fun k _ => by rw [hx k, ld_hi]

/-- The printed index maps over the 13 points: the two table windows and the two output windows move together, one
    block of 4096 rows per point; the weight row's window stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The staged weight row is the whole weight row, at every point. -/
theorem wblock_eq (c : Dev nD) (t : Fin cfg0.N) : iblk m c 2 t = V m c main_v0 := by
  obtain ⟨-, -, -, -, e0, e1, -⟩ := idx_facts t
  funext y
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- WHAT POINT `t` WRITES BACK to the first output is block `t` of the user table's per-node half sums. -/
theorem flushed_lo (c : Dev nD) (t : Fin cfg0.N) :
    (dats m 0 c).flushed 3 t = ((cfg0.win 3).blk t).view.read (Elt Ideal) (nodeLo (V m c main_v1) (V m c main_v0)) := by
  show (cfg0.win 3).cut (grid0.coords t) ((dats m 0 c).after 3 t) = _
  rw [after0_3]
  unfold out0_3
  rw [View.canon_unit_zero zero_off]
  simp only [View.ld_unit_zero (S := S4096x128) zero_off]
  obtain ⟨e0, e1, -, -, -, -, e6, e7, -⟩ := idx_facts t
  funext j
  refine entry_lo (V m c main_v1) (V m c main_v0) (iblk m c 2 t) (iblk m c 0 t) j (((cfg0.win 3).blk t).view.emb j)
    (fun k => ?_) (wblock_eq m c t)
  show V m c main_v1 (((cfg0.win 0).blk t).view.emb (ix2 (j 0) k)) = V m c main_v1 (ix2 ((((cfg0.win 3).blk t).view.emb j) 0) k)
  refine congrArg (V m c main_v1) (funext fun a => Fin.ext ?_)
  match a with
  | ⟨0, _⟩ => show win0_0.index t (0 : Fin 2) * 4096 + 1 * (j 0).val = win0_3.index t (0 : Fin 2) * 4096 + 1 * (j 0).val; omega
  | ⟨1, _⟩ => show win0_0.index t (1 : Fin 2) * 128 + 1 * k.val = k.val; omega

/-- WHAT POINT `t` WRITES BACK to the second output is block `t` of the item table's per-node half sums. -/
theorem flushed_hi (c : Dev nD) (t : Fin cfg0.N) :
    (dats m 0 c).flushed 4 t = ((cfg0.win 4).blk t).view.read (Elt Ideal) (nodeHi (V m c main_v2) (V m c main_v0)) := by
  show (cfg0.win 4).cut (grid0.coords t) ((dats m 0 c).after 4 t) = _
  rw [after0_4]
  unfold out0_4
  rw [View.canon_unit_zero zero_off]
  simp only [View.ld_unit_zero (S := S4096x128) zero_off]
  obtain ⟨-, -, e2, e3, -, -, -, -, e8, e9⟩ := idx_facts t
  funext j
  refine entry_hi (V m c main_v2) (V m c main_v0) (iblk m c 2 t) (iblk m c 1 t) j (((cfg0.win 4).blk t).view.emb j)
    (fun k => ?_) (wblock_eq m c t)
  show V m c main_v2 (((cfg0.win 1).blk t).view.emb (ix2 (j 0) k)) = V m c main_v2 (ix2 ((((cfg0.win 4).blk t).view.emb j) 0) k)
  refine congrArg (V m c main_v2) (funext fun a => Fin.ext ?_)
  match a with
  | ⟨0, _⟩ => show win0_1.index t (0 : Fin 2) * 4096 + 1 * (j 0).val = win0_4.index t (0 : Fin 2) * 4096 + 1 * (j 0).val; omega
  | ⟨1, _⟩ => show win0_1.index t (1 : Fin 2) * 128 + 1 * k.val = k.val; omega

/-- An index of the first output is in point `t`'s block iff each coordinate is in the block's range on its axis. -/
theorem mem_blk_lo (t : Fin cfg0.N) (i : S53248x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v3_0).slice (win0_3.rect t)).set ↔ _
  rw [View.set_slice_whole, Rect.mem_set_unit]
  exact Iff.rfl
/-- The same for the second output. -/
theorem mem_blk_hi (t : Fin cfg0.N) (i : S53248x1.Idx) :
    i ∈ ((cfg0.win 4).blk t).view.set ↔ ∀ a : Fin 2, win0_4.index t a * S4096x1.size a ≤ (i a).val ∧ (i a).val < win0_4.index t a * S4096x1.size a + S4096x1.size a := by
  show i ∈ ((View.whole main_v3_1).slice (win0_4.rect t)).set ↔ _
  rw [View.set_slice_whole, Rect.mem_set_unit]
  exact Iff.rfl

/-- The point whose block holds row `r`: `r / 4096`. -/
def pointOf (i : S53248x1.Idx) : Fin cfg0.N := ⟨(i 0).val / 4096, by
  show (i 0).val / 4096 < grid0.N
  rw [N_0]
  have : (i 0).val < 53248 := (i 0).isLt
  omega⟩

/-- Every row of the first output is in the block of the point `r / 4096`, which writes back. -/
theorem cover_lo (i : S53248x1.Idx) : ∃ t : Fin cfg0.N, (cfg0.win 3).flush t = true ∧ i ∈ ((cfg0.win 3).blk t).view.set := by
  refine ⟨pointOf i, flush0_3 _, ?_⟩
  obtain ⟨-, -, -, -, -, -, e6, e7, -⟩ := idx_facts (pointOf i)
  have hv : (pointOf i).val = (i 0).val / 4096 := rfl
  have h1 : (i 1).val < 1 := (i 1).isLt
  rw [mem_blk_lo]
  intro a
  match a with
  | ⟨0, _⟩ => show win0_3.index (pointOf i) (0 : Fin 2) * 4096 ≤ (i 0).val ∧ (i 0).val < win0_3.index (pointOf i) (0 : Fin 2) * 4096 + 4096; omega
  | ⟨1, _⟩ => show win0_3.index (pointOf i) (1 : Fin 2) * 1 ≤ (i 1).val ∧ (i 1).val < win0_3.index (pointOf i) (1 : Fin 2) * 1 + 1; omega
/-- The same for the second output. -/
theorem cover_hi (i : S53248x1.Idx) : ∃ t : Fin cfg0.N, (cfg0.win 4).flush t = true ∧ i ∈ ((cfg0.win 4).blk t).view.set := by
  refine ⟨pointOf i, flush0_4 _, ?_⟩
  obtain ⟨-, -, -, -, -, -, -, -, e8, e9⟩ := idx_facts (pointOf i)
  have hv : (pointOf i).val = (i 0).val / 4096 := rfl
  have h1 : (i 1).val < 1 := (i 1).isLt
  rw [mem_blk_hi]
  intro a
  match a with
  | ⟨0, _⟩ => show win0_4.index (pointOf i) (0 : Fin 2) * 4096 ≤ (i 0).val ∧ (i 0).val < win0_4.index (pointOf i) (0 : Fin 2) * 4096 + 4096; omega
  | ⟨1, _⟩ => show win0_4.index (pointOf i) (1 : Fin 2) * 1 ≤ (i 1).val ∧ (i 1).val < win0_4.index (pointOf i) (1 : Fin 2) * 1 + 1; omega

/-- THE FIRST OUTPUT after the region: the padded user table's per-node half sums. -/
theorem final_lo (c : Dev nD) : (dats m 0 c).arrAt 3 cfg0.N = nodeLo (V m c main_v1) (V m c main_v0) :=
  (dats m 0 c).arrAt_eq_of_cover 3 (nodeLo (V m c main_v1) (V m c main_v0)) (fun t _ => flushed_lo m c t) cover_lo
/-- THE SECOND OUTPUT after the region: the padded item table's per-node half sums. -/
theorem final_hi (c : Dev nD) : (dats m 0 c).arrAt 4 cfg0.N = nodeHi (V m c main_v2) (V m c main_v0) :=
  (dats m 0 c).arrAt_eq_of_cover 4 (nodeHi (V m c main_v2) (V m c main_v0)) (fun t _ => flushed_hi m c t) cover_hi

end Cert.KernelIdeal.NodeSums

end
-- ==== Proof.EdgeCombine.lean ====
/-
  The lines after the region, as one function of the two node columns, and that function at an index.

  From the two one-column arrays of per-node half sums over the PADDED tables (53248 rows) the program keeps rows
  `0 … 49999` as vectors, looks each up at the edge's start index (a negative index wrapped once by 50000, then clamped
  into the vector), adds the two looked-up scalars, adds the bias, and lays the 320000 sums out as a column. At edge
  `e` this is `(lo[row s e] + hi[row d e]) + b[0]`, the rows read in the padded columns at the same position: the
  padding rows `50000 … 53247` are never read.
-/
import proofs.«417019_j61495341744586_3_alg».proof.Proof.Gen.KernelIdeal
import proofs.«417019_j61495341744586_3_alg».proof.Proof.ScoreSpec
import Idealize.ShloMosaic.Lib.Pipeline.Value
import Idealize.ShloMosaic.Lib.ValueIdx
import Idealize.ShloMosaic.Lib.StableHlo.Predicate

noncomputable section

namespace Cert.KernelIdeal.EdgeCombine

open Cert.KernelIdeal Cert.KernelIdeal.Gen
open Idealize.ShloMosaic Idealize.ShloMosaic.ValueIdx Cert.Score

/-- Row `i` of a 50000-row table as a row of its 53248-row padding. -/
abbrev up (i : Fin 50000) : Fin 53248 := ⟨i.val, by omega⟩

/-- A padded node column cut back to the 50000 nodes, as a vector. -/
def nodeVec (col : Vec Ideal S53248x1 .f32) : Vec Ideal S50000 .f32 :=
  shapeCast S50000 (extractStridedSlice S50000x1 ![0, 0] col slices_S53248x1_S50000x1_0_0) shapeCasts_S50000x1_S50000

/-- Entry `i` of the cut-back vector is the padded column's row `i`. -/
theorem nodeVec_apply (col : Vec Ideal S53248x1 .f32) (i : Fin 50000) : nodeVec col (ix1 i) = col (ix2 (up i) 0) := by
  unfold nodeVec
  refine (shapeCast_apply _ shapeCasts_S50000x1_S50000 (ix1 i) (ix2 i (0 : Fin 1)) ?_).trans ?_
  · rw [Shape.rowMajor_val_one, Shape.rowMajor_val_two]
    show i.val * 1 + 0 = i.val
    omega
  exact extractStridedSlice_apply ![0, 0] col slices_S53248x1_S50000x1_0_0 (ix2 i 0) (ix2 (up i) 0) (fun a => match a with
    | ⟨0, _⟩ => by show i.val = 0 + i.val; omega
    | ⟨1, _⟩ => by show (0 : Nat) = 0 + 0; rfl)

/-- The scalar lookup of a 50000-vector at the edge's start index: the vector at the clamped row. -/
theorem take_apply (v : Vec Ideal S50000 .f32) (idx : IVec S320000x1 32) (e : Fin 320000) :
    Host.gather gather_S50000_S320000x1_S320000_n_0_n_n_0_1_1 v idx (ix1 e) = v (ix1 (row 50000 (by decide) idx e)) := by
  have h1 : (ix1 e : S320000.Idx) = Shape.Idx.ofFin e := funext fun a => by match a with | ⟨0, _⟩ => exact Fin.ext rfl
  have h2 : (StableHlo.Predicate.ixP e : S320000x1.Idx) = ix2 e 0 := funext fun a => by
    match a with
    | ⟨0, _⟩ => rfl
    | ⟨1, _⟩ => rfl
  rw [h1, StableHlo.Predicate.gather_take gather_S50000_S320000x1_S320000_n_0_n_n_0_1_1 rfl rfl rfl rfl v idx e (by decide)]
  refine congrArg v (funext fun a => ?_)
  match a with
  | ⟨0, _⟩ =>
    refine Fin.ext ?_
    show min (idx (StableHlo.Predicate.ixP e)).toInt.toNat (50000 - 1) = min (idx (ix2 e 0)).toInt.toNat (50000 - 1)
    rw [h2]

/-- The lines after the region as one function of the two padded node columns, the two index vectors and the bias. -/
def combine (lo hi : Vec Ideal S53248x1 .f32) (x2 x3 : IVec S320000 32) (x5 : Vec Ideal S1 .f32) : Vec Ideal S320000x1 .f32 :=
  shapeCast S320000x1
    (addf (F := Ideal) (φ := .f32)
      (addf (F := Ideal) (φ := .f32)
        (Host.gather gather_S50000_S320000x1_S320000_n_0_n_n_0_1_1 (nodeVec lo) (startCol x2))
        (Host.gather gather_S50000_S320000x1_S320000_n_0_n_n_0_1_1 (nodeVec hi) (startCol x3)))
      (broadcastInDim S320000 ![] bcast_S_S320000 (shapeCast S_ x5 shapeCasts_S1_S_)))
    shapeCasts_S320000_S320000x1

/-- The bias broadcast along the edges reads the bias's one entry. -/
theorem bias_apply (x5 : Vec Ideal S1 .f32) (e : Fin 320000) :
    broadcastInDim S320000 ![] bcast_S_S320000 (shapeCast S_ x5 shapeCasts_S1_S_) (ix1 e) = x5 (ix1 0) := by
  refine (broadcastInDim_apply _ bcast_S_S320000 _ (ix1 e) (fun a => a.elim0) (fun a => a.elim0)).trans ?_
  refine shapeCast_apply x5 shapeCasts_S1_S_ _ (ix1 0) ?_
  have h1 : (S1.rowMajor (ix1 (0 : Fin 1))).val < 1 := (S1.rowMajor _).isLt
  have h2 : (S_.rowMajor (fun a => a.elim0)).val < 1 := (S_.rowMajor _).isLt
  omega

/-- THE COMBINE AT EDGE `e`: the first column at the user row, plus the second at the item row, plus the bias. -/
theorem combine_apply (lo hi : Vec Ideal S53248x1 .f32) (x2 x3 : IVec S320000 32) (x5 : Vec Ideal S1 .f32)
    (e : Fin 320000) (z : Fin 1) :
    combine lo hi x2 x3 x5 (ix2 e z)
      = (lo (ix2 (up (row 50000 (by decide) (startCol x2) e)) 0) + hi (ix2 (up (row 50000 (by decide) (startCol x3) e)) 0))
        + x5 (ix1 0) := by
  unfold combine
  refine (shapeCast_apply _ shapeCasts_S320000_S320000x1 (ix2 e z) (ix1 e) ?_).trans ?_
  · rw [Shape.rowMajor_val_one, Shape.rowMajor_val_two]
    show e.val = e.val * 1 + z.val
    have := z.isLt
    omega
  show (Host.gather gather_S50000_S320000x1_S320000_n_0_n_n_0_1_1 (nodeVec lo) (startCol x2) (ix1 e)
      + Host.gather gather_S50000_S320000x1_S320000_n_0_n_n_0_1_1 (nodeVec hi) (startCol x3) (ix1 e))
      + broadcastInDim S320000 ![] bcast_S_S320000 (shapeCast S_ x5 shapeCasts_S1_S_) (ix1 e) = _
  rw [take_apply, take_apply, nodeVec_apply, nodeVec_apply, bias_apply]

end Cert.KernelIdeal.EdgeCombine

end
-- ==== Proof.KernelScore.lean ====
/-
  The lines of the kernel program around its region, read.

  Before the region the program lays the 256 weights out as a row and pads each table below with 3248 rows: a row
  below 50000 of a padded table is the table's row, and entry `q` of the weight row is weight `q`. After the region
  the result buffer holds the edge combine (Proof/EdgeCombine.lean) of the two arrays the region left, the index
  vectors and the bias having passed through the region untouched.
-/
import proofs.«417019_j61495341744586_3_alg».proof.Proof.Gen.KernelIdeal.Frame
import proofs.«417019_j61495341744586_3_alg».proof.Proof.NodeSums
import proofs.«417019_j61495341744586_3_alg».proof.Proof.EdgeCombine
import Idealize.ShloMosaic.Lib.StableHlo.Run
import Idealize.ShloMosaic.Lib.KernelVsHost

set_option maxRecDepth 16384

noncomputable section

namespace Cert.KernelIdeal.KernelScore

open Cert.KernelIdeal Cert.KernelIdeal.Gen Cert.KernelIdeal.NodeSums Cert.KernelIdeal.EdgeCombine
open Idealize.ShloMosaic Idealize.ShloMosaic.TcCoe Idealize.ShloMosaic.ValueIdx Idealize.SL.Sem Idealize.ShloMosaic.StableHlo
open Cert.Score

variable (m : (ℓ : Loc nD τ sig) → Buf (Elt Ideal) ℓ) (ρ : Dev nD → PrngReg)

/-! ## The lines before the region -/

/-- The region finds the user table padded below with 3248 rows of the padding value. -/
theorem users_eq (c : Dev nD) : (V m c main_v1 : Vec Ideal S53248x128 .f32)
    = pad S53248x128 ![0, 0] ![3248, 0] ![0, 0] (m ((c : Thread nD τ).loc main_arg0))
        (sitofp (F := Ideal) .f32 (constantI S_ 32 0#32)) pads_S50000x128_S53248x128_032480_000 h_S_ := by
  dsimp only [V, V0]
  simp only [hostOps0, hostOps0_1, hostOps0_2, hostOps0_3, List.flatten_cons, List.flatten_nil, List.append_nil,
    List.cons_append, List.nil_append]
  after_results
  rfl
/-- The region finds the item table padded the same way. -/
theorem items_eq (c : Dev nD) : (V m c main_v2 : Vec Ideal S53248x128 .f32)
    = pad S53248x128 ![0, 0] ![3248, 0] ![0, 0] (m ((c : Thread nD τ).loc main_arg1))
        (sitofp (F := Ideal) .f32 (constantI S_ 32 0#32)) pads_S50000x128_S53248x128_032480_000 h_S_ := by
  dsimp only [V, V0]
  simp only [hostOps0, hostOps0_1, hostOps0_2, hostOps0_3, List.flatten_cons, List.flatten_nil, List.append_nil,
    List.cons_append, List.nil_append]
  after_results
  rfl
/-- The region finds the 256 weights laid out as one row. -/
theorem wrow_eq (c : Dev nD) : (V m c main_v0 : Vec Ideal S1x256 .f32)
    = shapeCast S1x256 (m ((c : Thread nD τ).loc main_arg4)) shapeCasts_S256x1_S1x256 := by
  dsimp only [V, V0]
  simp only [hostOps0, hostOps0_1, hostOps0_2, hostOps0_3, List.flatten_cons, List.flatten_nil, List.append_nil,
    List.cons_append, List.nil_append]
  after_results
  rfl

/-- The three arrays the region reads, named at their literal types. -/
abbrev usersP (c : Dev nD) : Vec Ideal S53248x128 .f32 := V m c main_v1
abbrev itemsP (c : Dev nD) : Vec Ideal S53248x128 .f32 := V m c main_v2
abbrev wrowP (c : Dev nD) : Vec Ideal S1x256 .f32 := V m c main_v0

/-- A row below 50000 of the padded user table is the user table's row. -/
theorem users_apply (c : Dev nD) (i : Fin 50000) (k : Fin 128) :
    usersP m c (ix2 (up i) k) = m ((c : Thread nD τ).loc main_arg0) (ix2 i k) :=
  (congrFun (users_eq m c) (ix2 (up i) k)).trans
    (pad_apply_of_inside ![0, 0] ![3248, 0] ![0, 0] _ _ pads_S50000x128_S53248x128_032480_000 h_S_ (ix2 (up i) k) (ix2 i k)
      (fun a => match a with
        | ⟨0, _⟩ => by show i.val = 0 + i.val * (0 + 1); omega
        | ⟨1, _⟩ => by show k.val = 0 + k.val * (0 + 1); omega))
/-- A row below 50000 of the padded item table is the item table's row. -/
theorem items_apply (c : Dev nD) (i : Fin 50000) (k : Fin 128) :
    itemsP m c (ix2 (up i) k) = m ((c : Thread nD τ).loc main_arg1) (ix2 i k) :=
  (congrFun (items_eq m c) (ix2 (up i) k)).trans
    (pad_apply_of_inside ![0, 0] ![3248, 0] ![0, 0] _ _ pads_S50000x128_S53248x128_032480_000 h_S_ (ix2 (up i) k) (ix2 i k)
      (fun a => match a with
        | ⟨0, _⟩ => by show i.val = 0 + i.val * (0 + 1); omega
        | ⟨1, _⟩ => by show k.val = 0 + k.val * (0 + 1); omega))
/-- Entry `q` of the weight row is weight `q`. -/
theorem wrow_apply (c : Dev nD) (q : Fin 256) :
    wrowP m c (ix2 0 q) = m ((c : Thread nD τ).loc main_arg4) (ix2 q 0) :=
  (congrFun (wrow_eq m c) (ix2 0 q)).trans
    (shapeCast_apply _ shapeCasts_S256x1_S1x256 (ix2 0 q) (ix2 q 0) (by
      rw [Shape.rowMajor_val_two, Shape.rowMajor_val_two]
      show q.val * 1 + 0 = 0 * 256 + q.val
      omega))

/-! ## The lines after the region -/

/-- What the region leaves in its first output, as the lines after it read it. -/
theorem reads_lo (c : Dev nD) :
    Pipeline.withArrays (cfgs 0).spec c (V0 m c) (fun w => (dats m 0 c).arrAt w (cfgs 0).N) (Proc.devRef .tc main_v3_0)
      = (dats m 0 c).arrAt 3 cfg0.N :=
  Pipeline.withArrays_arr spec0 launch0.win.arr_inj c (V0 m c) (fun w => (dats m 0 c).arrAt w cfg0.N) 3
/-- What the region leaves in its second output, as the lines after it read it. -/
theorem reads_hi (c : Dev nD) :
    Pipeline.withArrays (cfgs 0).spec c (V0 m c) (fun w => (dats m 0 c).arrAt w (cfgs 0).N) (Proc.devRef .tc main_v3_1)
      = (dats m 0 c).arrAt 4 cfg0.N :=
  Pipeline.withArrays_arr spec0 launch0.win.arr_inj c (V0 m c) (fun w => (dats m 0 c).arrAt w cfg0.N) 4
/-- The source indices pass through the region. -/
theorem reads_src (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne spec0 c (V0 m c) _ main_arg2 (by exact (by decide : ∀ w, Pipeline.arrRef spec0 w ≠ main_arg2))).trans
    (V_main_arg2 m c)
/-- The destination indices pass through the region. -/
theorem reads_dst (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne spec0 c (V0 m c) _ main_arg3 (by exact (by decide : ∀ w, Pipeline.arrRef spec0 w ≠ main_arg3))).trans
    (V_main_arg3 m c)
/-- The bias passes through the region. -/
theorem reads_bias (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne spec0 c (V0 m c) _ main_arg5 (by exact (by decide : ∀ w, Pipeline.arrRef spec0 w ≠ main_arg5))).trans
    (V_main_arg5 m c)

set_option maxHeartbeats 2000000 in
/-- The result buffer after the last line: the edge combine of the two arrays the region left. -/
theorem tail_eq (c : Dev nD) :
    (Pipeline.afterTail₀ cfgs (dats m) 0 (V0 m) [hostOps1] c main_v26 : Vec Ideal S320000x1 .f32)
      = combine ((dats m 0 c).arrAt 3 cfg0.N) ((dats m 0 c).arrAt 4 cfg0.N)
          (m ((c : Thread nD τ).loc main_arg2)) (m ((c : Thread nD τ).loc main_arg3)) (m ((c : Thread nD τ).loc main_arg5)) := by
  unfold Pipeline.afterTail₀
  show StableHlo.after hostOps1 _ (Proc.devRef .tc main_v26) = _
  after_results
  rw [reads_lo, reads_hi, reads_src, reads_dst, reads_bias]
  rfl

end Cert.KernelIdeal.KernelScore

end
-- ==== Proof.KernelRun.lean ====
/-
  The kernel program's result is the score function of its arguments.

  The region leaves the two columns of per-node half sums over the padded tables; the lines after it cut the columns
  back to the 50000 nodes, look them up at the edges' start indices, add the two, add the bias. At edge `e` a looked-up
  row is below 50000, where the padded table IS the table, so the first column there is the user row times the first
  128 weights and the second the item row times the last 128: the score function's two half sums.
-/
import proofs.«417019_j61495341744586_3_alg».proof.Proof.KernelScore

set_option maxRecDepth 16384

noncomputable section

namespace Cert.KernelIdeal.KernelScore

open Cert.KernelIdeal Cert.KernelIdeal.Gen Cert.KernelIdeal.NodeSums Cert.KernelIdeal.EdgeCombine
open Idealize.ShloMosaic Idealize.ShloMosaic.TcCoe Idealize.ShloMosaic.ValueIdx Idealize.SL.Sem Idealize.ShloMosaic.StableHlo
open Cert.Score

variable (m : (ℓ : Loc nD τ sig) → Buf (Elt Ideal) ℓ) (ρ : Dev nD → PrngReg)

/-- THE KERNEL PROGRAM'S RESULT is the score function of its six arguments. -/
theorem result_eq (c : Dev nD) :
    (Pipeline.afterTail₀ cfgs (dats m) 0 (V0 m) [hostOps1] c main_v26 : Vec Ideal S320000x1 .f32)
      = score (m ((c : Thread nD τ).loc main_arg0)) (m ((c : Thread nD τ).loc main_arg1))
          (startCol (m ((c : Thread nD τ).loc main_arg2))) (startCol (m ((c : Thread nD τ).loc main_arg3)))
          (m ((c : Thread nD τ).loc main_arg4)) (m ((c : Thread nD τ).loc main_arg5)) := by
  rw [tail_eq, final_lo, final_hi]
  funext i
  obtain ⟨e, z, rfl⟩ : ∃ (e : Fin 320000) (z : Fin 1), i = ix2 e z := ⟨i 0, i 1, eq_ix2 i⟩
  rw [combine_apply]
  unfold nodeLo nodeHi score
  refine congrArg₂ (· + ·) (congrArg₂ (· + ·) (Finset.sum_congr rfl fun k _ => ?_) (Finset.sum_congr rfl fun k _ => ?_)) rfl
  · exact congrArg₂ (· * ·) (users_apply m c _ k) (wrow_apply m c (lo k))
  · exact congrArg₂ (· * ·) (items_apply m c _ k) (wrow_apply m c (hi k))

/-- THE RUN: every weakly fair execution of the kernel program terminates with the result buffer at the score function
    of the arguments and the arguments unchanged. -/
theorem run : θ_run defs (onTc (τ := τ) (main (F := Ideal))) ⟨m, fun _ => 0, ρ⟩ fun r => ∀ c : Dev nD,
      r.2.mem ((c.tc : Thread nD τ).loc main_v26)
        = score (m ((c : Thread nD τ).loc main_arg0)) (m ((c : Thread nD τ).loc main_arg1))
            (startCol (m ((c : Thread nD τ).loc main_arg2))) (startCol (m ((c : Thread nD τ).loc main_arg3)))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelScore

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.RefScore.lean ====
/-
  The reference program's result is the score function of its arguments.

  The reference gathers, per edge, the 128-wide user row and the 128-wide item row its two start indices name, joins
  them into one 256-wide row and contracts that row with the 256 weights, then adds the bias. Read at `(e, 0)`: the
  contraction is a sum over 256 positions; its first 128 terms read the joined row's left half, which is the gathered
  user row, its last 128 the right half, the gathered item row at the position less 128; a gathered row is the table's
  row at the clamped start index. Splitting the sum in halves gives the score function's two half sums.
-/
import proofs.«417019_j61495341744586_3_alg».proof.Proof.Gen.ReferenceIdeal.Read
import proofs.«417019_j61495341744586_3_alg».proof.Proof.ScoreSpec
import proofs.«417019_j61495341744586_3_alg».proof.Proof.LibTakeRows

noncomputable section

namespace Cert.ReferenceIdeal.RefScore

open Cert.ReferenceIdeal Cert.ReferenceIdeal.Gen Cert.ReferenceIdeal.Read
open Idealize.ShloMosaic Idealize.ShloMosaic.ValueIdx Cert.Score

/-- The user lookup's start indices are the source indices as a start-index column. -/
theorem col_src (x2 : (⟨S320000, .i32⟩ : BufTy).Contents (Elt Ideal)) : val_main_v5 (F := Ideal) x2 = startCol x2 := rfl
/-- The item lookup's start indices are the destination indices as a start-index column. -/
theorem col_dst (x3 : (⟨S320000, .i32⟩ : BufTy).Contents (Elt Ideal)) : val_main_v12 (F := Ideal) x3 = startCol x3 := rfl

/-- The joined row's left half is the gathered user row: the user table at the clamped source start index. -/
theorem joined_lo (x0 x1 : (⟨S50000x128, .f32⟩ : BufTy).Contents (Elt Ideal)) (x2 x3 : (⟨S320000, .i32⟩ : BufTy).Contents (Elt Ideal))
    (e : Fin 320000) (k : Fin 128) :
    val_main_v14 (F := Ideal) x0 x1 x2 x3 (ix2 e (lo k)) = x0 (ix2 (row 50000 (by decide) (startCol x2) e) k) := by
  unfold val_main_v14
  refine (concatenate_pair_apply_left (t := S320000x256) (s₁ := S320000x128) (s₂ := S320000x128) (1 : Fin 2) _ _ concatenates_S320000x128_S320000x128_S320000x256_d1
    (ix2 e (lo k)) rfl (ix2 e k) ?_).trans ?_
  · intro b
    match b with
    | ⟨0, _⟩ => rfl
    | ⟨1, _⟩ => rfl
  · unfold val_main_v6
    rw [col_src]
    exact Cert.Lib.gather_rows_apply (by decide) _ rfl rfl rfl rfl rfl rfl rfl x0 (startCol x2) e k

/-- The joined row's right half is the gathered item row, 128 positions on: the item table at the clamped destination
    start index. -/
theorem joined_hi (x0 x1 : (⟨S50000x128, .f32⟩ : BufTy).Contents (Elt Ideal)) (x2 x3 : (⟨S320000, .i32⟩ : BufTy).Contents (Elt Ideal))
    (e : Fin 320000) (k : Fin 128) :
    val_main_v14 (F := Ideal) x0 x1 x2 x3 (ix2 e (hi k)) = x1 (ix2 (row 50000 (by decide) (startCol x3) e) k) := by
  unfold val_main_v14
  refine (concatenate_pair_apply_right (t := S320000x256) (s₁ := S320000x128) (s₂ := S320000x128) (1 : Fin 2) _ _ concatenates_S320000x128_S320000x128_S320000x256_d1
    (ix2 e (hi k)) rfl rfl (ix2 e k) ?_ ?_).trans ?_
  · intro b hb
    match b, hb with
    | ⟨0, _⟩, _ => rfl
    | ⟨1, _⟩, hb => exact absurd rfl hb
  · show k.val + 128 = 128 + k.val
    omega
  · unfold val_main_v13
    rw [col_dst]
    exact Cert.Lib.gather_rows_apply (by decide) _ rfl rfl rfl rfl rfl rfl rfl x1 (startCol x3) e k

/-- THE REFERENCE'S RESULT is the score function of its six arguments, the two index vectors as start-index columns. -/
theorem result_eq (x0 x1 : (⟨S50000x128, .f32⟩ : BufTy).Contents (Elt Ideal)) (x2 x3 : (⟨S320000, .i32⟩ : BufTy).Contents (Elt Ideal))
    (x4 : (⟨S256x1, .f32⟩ : BufTy).Contents (Elt Ideal)) (x5 : (⟨S1, .f32⟩ : BufTy).Contents (Elt Ideal)) :
    val_main_v18 (F := Ideal) x0 x1 x2 x3 x4 x5 = score x0 x1 (startCol x2) (startCol x3) x4 x5 := by
  funext i
  obtain ⟨e, z, rfl⟩ : ∃ (e : Fin 320000) (z : Fin 1), i = ix2 e z := ⟨i 0, i 1, eq_ix2 i⟩
  obtain rfl : z = 0 := Subsingleton.elim _ _
  -- the contraction's operand indices at position `k`, and the bias's one entry, as coordinates
  have hl : ∀ k : Fin 256, lidx_main_v15 (ix2 e 0) k = ix2 e k := fun k =>
    funext fun a => Fin.ext (by match a with | ⟨0, _⟩ => rfl | ⟨1, _⟩ => rfl)
  have hr : ∀ k : Fin 256, ridx_main_v15 (ix2 e 0) k = ix2 k 0 := fun k =>
    funext fun a => Fin.ext (by match a with | ⟨0, _⟩ => rfl | ⟨1, _⟩ => rfl)
  have hb : idx_main_v16 (idx_main_v17 (ix2 e (0 : Fin 1))) = ix1 0 :=
    funext fun a => Fin.ext (by match a with | ⟨0, _⟩ => rfl)
  rw [val_main_v18_apply, val_main_v15_apply, val_main_v17_apply, val_main_v16_apply, hb]
  simp only [hl, hr]
  rw [sum_halves]
  simp only [joined_lo, joined_hi]
  rfl

end Cert.ReferenceIdeal.RefScore

end
-- ==== Proof.lean ====
/-
  An edge scorer over two node tables: for each of 320000 edges, the user row and the item row its two indices name
  (a negative index counted from the end, then clamped into the 50000 rows), joined and contracted with 256 weights,
  plus a bias.

  The kernel program never forms the 256-wide row. It multiplies every (padded) table row by its half of the weights
  once, in blocks of 4096 rows, and then looks up two scalars per edge; the reference looks up two 128-wide rows per
  edge and contracts their join. On the extended reals both are ONE function of the arguments (Proof/ScoreSpec.lean's
  `score`):

      (Σ_{k<128} user[i,k] · W[k,0]  +  Σ_{k<128} item[j,k] · W[128+k,0])  +  b[0]

  — the kernel side by reading the two arrays its region leaves as whole-array functions of the padded tables and
  following the lines after the region at an index (Proof/NodeSums.lean, Proof/EdgeCombine.lean, Proof/KernelRun.lean),
  the reference side by reading its join and its contraction at an index and splitting the sum over 256 positions into
  its two halves (Proof/RefScore.lean). The only law used is that a finite sum splits; it holds in any commutative
  additive monoid, so the precondition that the inputs are finite is never opened. The ideal pass rewrote nothing, so
  the idealization claim has no conjunct.
-/
import proofs.«417019_j61495341744586_3_alg».proof.Defs
import proofs.«417019_j61495341744586_3_alg».proof.Proof.Gen.Kernel
import proofs.«417019_j61495341744586_3_alg».proof.Proof.Gen.Kernel.Skeleton
import proofs.«417019_j61495341744586_3_alg».proof.Proof.Gen.Kernel.Launch
import proofs.«417019_j61495341744586_3_alg».proof.Proof.Gen.Kernel.Points
import proofs.«417019_j61495341744586_3_alg».proof.Proof.Gen.Kernel.Frame
import proofs.«417019_j61495341744586_3_alg».proof.Proof.Gen.KernelIdeal
import proofs.«417019_j61495341744586_3_alg».proof.Proof.Gen.KernelIdeal.Skeleton
import proofs.«417019_j61495341744586_3_alg».proof.Proof.Gen.KernelIdeal.Launch
import proofs.«417019_j61495341744586_3_alg».proof.Proof.Gen.KernelIdeal.Points
import proofs.«417019_j61495341744586_3_alg».proof.Proof.Gen.KernelIdeal.Frame
import proofs.«417019_j61495341744586_3_alg».proof.Proof.Gen.ReferenceIdeal
import proofs.«417019_j61495341744586_3_alg».proof.Proof.Gen.Pre_finite_inputs
import proofs.«417019_j61495341744586_3_alg».proof.Proof.Gen.ReferenceIdeal.Run
import proofs.«417019_j61495341744586_3_alg».proof.Proof.Gen.ReferenceIdeal.Read
import proofs.«417019_j61495341744586_3_alg».proof.Proof.KernelRun
import proofs.«417019_j61495341744586_3_alg».proof.Proof.RefScore
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ
/-- The idealized kernel program runs and keeps its arguments. -/
theorem frame_kernelIdeal : Cert.frame_KernelIdeal := fun m ρ _ => Cert.KernelIdeal.Gen.frame m ρ
/-- The idealized reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to state. -/
theorem preserves : Cert.preserves_Kernel_KernelIdeal := trivial

/-- From memories agreeing on the six arguments both programs end with the result at the score function of those
    arguments: the kernel program by its run (`KernelScore.run`), the reference by its run read as the score function
    (`RefScore.result_eq`). -/
theorem algebraic : Cert.algebraic_KernelIdeal_ReferenceIdeal := by
  intro m ρ m' ρ' _ hagree
  refine ⟨_, Cert.KernelIdeal.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefScore.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
